-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224x3 : Shape := ⟨4, ![64, 224, 224, 3]⟩
abbrev S1452x768 : Shape := ⟨2, ![1452, 768]⟩
abbrev S_ : Shape := ⟨0, ![]⟩

class Facts : Prop where
  bcast_S_S64x224x224x3 : S_.BroadcastsInDim S64x224x224x3 (![] : Fin 0 → Fin S64x224x224x3.rank)
  reducesTo_S64x224x224x3_S_d0_1_2_3 : S64x224x224x3.ReducesTo [0, 1, 2, 3] S_
  h_S_ : 0 < S_.numel
  bcast_S_S1452x768 : S_.BroadcastsInDim S1452x768 (![] : Fin 0 → Fin S1452x768.rank)
  reducesTo_S1452x768_S_d0_1 : S1452x768.ReducesTo [0, 1] S_

variable [Facts]

def fn {F : FTy → Type} [FloatOps F] (main_arg0 : FVec F S64x224x224x3 .f32) (main_arg1 : FVec F S1452x768 .f32) : IVec S_ 1 :=
  let main_v0 : FVec F S64x224x224x3 .f32 := Host.absf main_arg0
  let main_cst : FVec F S_ .f32 := constant S_ .f32 0x7F800000#32
  let main_v1 : FVec F S64x224x224x3 .f32 := broadcastInDim S64x224x224x3 ![] bcast_S_S64x224x224x3 main_cst
  let main_v2 : IVec S64x224x224x3 1 := cmpf .olt main_v0 main_v1
  let main_c : IVec S_ 1 := constantI S_ 1 1#1
  let main_v3 : IVec S_ 1 := (fun x v => Host.reduce IntOp.andi x v reducesTo_S64x224x224x3_S_d0_1_2_3 h_S_) main_v2 main_c
  let main_v4 : FVec F S1452x768 .f32 := Host.absf main_arg1
  let main_cst_0 : FVec F S_ .f32 := constant S_ .f32 0x7F800000#32
  let main_v5 : FVec F S1452x768 .f32 := broadcastInDim S1452x768 ![] bcast_S_S1452x768 main_cst_0
  let main_v6 : IVec S1452x768 1 := cmpf .olt main_v4 main_v5
  let main_c_1 : IVec S_ 1 := constantI S_ 1 1#1
  let main_v7 : IVec S_ 1 := (fun x v => Host.reduce IntOp.andi x v reducesTo_S1452x768_S_d0_1 h_S_) main_v6 main_c_1
  let main_v8 : IVec S_ 1 := andi main_v3 main_v7
  main_v8
-- ==== Kernel.lean ====
abbrev S64x224x224x3 : Shape := ⟨4, ![64, 224, 224, 3]⟩
abbrev S1452x768 : Shape := ⟨2, ![1452, 768]⟩
abbrev S308 : Shape := ⟨1, ![308]⟩
abbrev S_ : Shape := ⟨0, ![]⟩
abbrev S308x1 : Shape := ⟨2, ![308, 1]⟩
abbrev S1 : Shape := ⟨1, ![1]⟩
abbrev S1x1 : Shape := ⟨2, ![1, 1]⟩
abbrev S64x308x224x3 : Shape := ⟨4, ![64, 308, 224, 3]⟩
abbrev S64x14x22x224x3 : Shape := ⟨5, ![64, 14, 22, 224, 3]⟩
abbrev S64x14x22x308x3 : Shape := ⟨5, ![64, 14, 22, 308, 3]⟩
abbrev S64x14x22x14x22x3 : Shape := ⟨6, ![64, 14, 22, 14, 22, 3]⟩
abbrev S64x14x14x22x22x3 : Shape := ⟨6, ![64, 14, 14, 22, 22, 3]⟩
abbrev S64x196x1452 : Shape := ⟨3, ![64, 196, 1452]⟩
abbrev S12544x1452 : Shape := ⟨2, ![12544, 1452]⟩
abbrev S12544x768 : Shape := ⟨2, ![12544, 768]⟩
abbrev S1792x1452 : Shape := ⟨2, ![1792, 1452]⟩
abbrev S1792x768 : Shape := ⟨2, ![1792, 768]⟩
abbrev S64x196x768 : Shape := ⟨3, ![64, 196, 768]⟩

abbrev nBuf : Space → Nat
  | .hbm => 58
  | .vmem => 5
  | .smem => 0
  | _ => 0

abbrev bufTy : (tb : Table) → Fin (tcTables nBuf tb) → BufTy
  | .hbm, ⟨0, _⟩ => ⟨S64x224x224x3, .f32⟩
  | .hbm, ⟨1, _⟩ => ⟨S1452x768, .f32⟩
  | .hbm, ⟨2, _⟩ => ⟨S308, .i32⟩
  | .hbm, ⟨3, _⟩ => ⟨S_, .i32⟩
  | .hbm, ⟨4, _⟩ => ⟨S308, .i32⟩
  | .hbm, ⟨5, _⟩ => ⟨S308, .i1⟩
  | .hbm, ⟨6, _⟩ => ⟨S_, .i32⟩
  | .hbm, ⟨7, _⟩ => ⟨S308, .i32⟩
  | .hbm, ⟨8, _⟩ => ⟨S308, .i32⟩
  | .hbm, ⟨9, _⟩ => ⟨S308, .i32⟩
  | .hbm, ⟨10, _⟩ => ⟨S308x1, .i32⟩
  | .hbm, ⟨11, _⟩ => ⟨S1, .i32⟩
  | .hbm, ⟨12, _⟩ => ⟨S_, .i32⟩
  | .hbm, ⟨13, _⟩ => ⟨S308x1, .i32⟩
  | .hbm, ⟨14, _⟩ => ⟨S308x1, .i1⟩
  | .hbm, ⟨15, _⟩ => ⟨S1x1, .i32⟩
  | .hbm, ⟨16, _⟩ => ⟨S308x1, .i32⟩
  | .hbm, ⟨17, _⟩ => ⟨S308x1, .i1⟩
  | .hbm, ⟨18, _⟩ => ⟨S308x1, .i1⟩
  | .hbm, ⟨19, _⟩ => ⟨S_, .i1⟩
  | .hbm, ⟨20, _⟩ => ⟨S308, .i1⟩
  | .hbm, ⟨21, _⟩ => ⟨S64x308x224x3, .f32⟩
  | .hbm, ⟨22, _⟩ => ⟨S64x308x224x3, .i1⟩
  | .hbm, ⟨23, _⟩ => ⟨S_, .f32⟩
  | .hbm, ⟨24, _⟩ => ⟨S64x308x224x3, .f32⟩
  | .hbm, ⟨25, _⟩ => ⟨S64x308x224x3, .f32⟩
  | .hbm, ⟨26, _⟩ => ⟨S64x14x22x224x3, .f32⟩
  | .hbm, ⟨27, _⟩ => ⟨S_, .i32⟩
  | .hbm, ⟨28, _⟩ => ⟨S308, .i32⟩
  | .hbm, ⟨29, _⟩ => ⟨S308, .i1⟩
  | .hbm, ⟨30, _⟩ => ⟨S_, .i32⟩
  | .hbm, ⟨31, _⟩ => ⟨S308, .i32⟩
  | .hbm, ⟨32, _⟩ => ⟨S308, .i32⟩
  | .hbm, ⟨33, _⟩ => ⟨S308, .i32⟩
  | .hbm, ⟨34, _⟩ => ⟨S308x1, .i32⟩
  | .hbm, ⟨35, _⟩ => ⟨S1, .i32⟩
  | .hbm, ⟨36, _⟩ => ⟨S_, .i32⟩
  | .hbm, ⟨37, _⟩ => ⟨S308x1, .i32⟩
  | .hbm, ⟨38, _⟩ => ⟨S308x1, .i1⟩
  | .hbm, ⟨39, _⟩ => ⟨S1x1, .i32⟩
  | .hbm, ⟨40, _⟩ => ⟨S308x1, .i32⟩
  | .hbm, ⟨41, _⟩ => ⟨S308x1, .i1⟩
  | .hbm, ⟨42, _⟩ => ⟨S308x1, .i1⟩
  | .hbm, ⟨43, _⟩ => ⟨S_, .i1⟩
  | .hbm, ⟨44, _⟩ => ⟨S308, .i1⟩
  | .hbm, ⟨45, _⟩ => ⟨S64x14x22x308x3, .f32⟩
  | .hbm, ⟨46, _⟩ => ⟨S64x14x22x308x3, .i1⟩
  | .hbm, ⟨47, _⟩ => ⟨S_, .f32⟩
  | .hbm, ⟨48, _⟩ => ⟨S64x14x22x308x3, .f32⟩
  | .hbm, ⟨49, _⟩ => ⟨S64x14x22x308x3, .f32⟩
  | .hbm, ⟨50, _⟩ => ⟨S64x14x22x14x22x3, .f32⟩
  | .hbm, ⟨51, _⟩ => ⟨S64x14x14x22x22x3, .f32⟩
  | .hbm, ⟨52, _⟩ => ⟨S64x196x1452, .f32⟩
  | .hbm, ⟨53, _⟩ => ⟨S12544x1452, .f32⟩
  | .hbm, ⟨54, _⟩ => ⟨S12544x1452, .bf16⟩
  | .hbm, ⟨55, _⟩ => ⟨S1452x768, .bf16⟩
  | .hbm, ⟨56, _⟩ => ⟨S12544x768, .f32⟩
  | .hbm, ⟨57, _⟩ => ⟨S64x196x768, .f32⟩
  | .local _ .vmem, ⟨0, _⟩ => ⟨S1792x1452, .bf16⟩
  | .local _ .vmem, ⟨1, _⟩ => ⟨S1792x1452, .bf16⟩
  | .local _ .vmem, ⟨2, _⟩ => ⟨S1452x768, .bf16⟩
  | .local _ .vmem, ⟨3, _⟩ => ⟨S1792x768, .f32⟩
  | .local _ .vmem, ⟨4, _⟩ => ⟨S1792x768, .f32⟩
  | _, _ => ⟨S64x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1452 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1452x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S308 : S_.BroadcastsInDim S308 (![] : Fin 0 → Fin S308.rank)
  bcast_S308_S308x1_0 : S308.BroadcastsInDim S308x1 (![0] : Fin 1 → Fin S308x1.rank)
  bcast_S_S308x1 : S_.BroadcastsInDim S308x1 (![] : Fin 0 → Fin S308x1.rank)
  bcast_S1_S1x1_1 : S1.BroadcastsInDim S1x1 (![1] : Fin 1 → Fin S1x1.rank)
  bcast_S1x1_S308x1_0_1 : S1x1.BroadcastsInDim S308x1 (![0, 1] : Fin 2 → Fin S308x1.rank)
  reducesTo_S308x1_S308_d1 : S308x1.ReducesTo [1] S308
  h_S_ : 0 < S_.numel
  bcast_S308_S64x308x224x3_1 : S308.BroadcastsInDim S64x308x224x3 (![1] : Fin 1 → Fin S64x308x224x3.rank)
  bcast_S_S64x308x224x3 : S_.BroadcastsInDim S64x308x224x3 (![] : Fin 0 → Fin S64x308x224x3.rank)
  shapeCasts_S64x308x224x3_S64x14x22x224x3 : S64x308x224x3.ShapeCasts S64x14x22x224x3
  bcast_S308_S64x14x22x308x3_3 : S308.BroadcastsInDim S64x14x22x308x3 (![3] : Fin 1 → Fin S64x14x22x308x3.rank)
  bcast_S_S64x14x22x308x3 : S_.BroadcastsInDim S64x14x22x308x3 (![] : Fin 0 → Fin S64x14x22x308x3.rank)
  shapeCasts_S64x14x22x308x3_S64x14x22x14x22x3 : S64x14x22x308x3.ShapeCasts S64x14x22x14x22x3
  transposes_S64x14x22x14x22x3_S64x14x14x22x22x3_0_1_3_2_4_5 : S64x14x22x14x22x3.Transposes [0, 1, 3, 2, 4, 5] S64x14x14x22x22x3
  shapeCasts_S64x14x14x22x22x3_S64x196x1452 : S64x14x14x22x22x3.ShapeCasts S64x196x1452
  shapeCasts_S64x196x1452_S12544x1452 : S64x196x1452.ShapeCasts S12544x1452
  bitsLt_bf16_f32 : FTy.bits .bf16 < FTy.bits .f32
  inb_S1792x1452_S1792x1452_0_0 : ∀ a, (![0, 0] : Fin 2 → Nat) a + S1792x1452.size a ≤ S1792x1452.size a
  h_S1792x1452 : 0 < S1792x1452.numel
  shapeCasts_S1792x1452_S1792x1452 : S1792x1452.ShapeCasts S1792x1452
  inb_S1452x768_S1452x768_0_0 : ∀ a, (![0, 0] : Fin 2 → Nat) a + S1452x768.size a ≤ S1452x768.size a
  h_S1452x768 : 0 < S1452x768.numel
  shapeCasts_S1452x768_S1452x768 : S1452x768.ShapeCasts S1452x768
  inb_S1792x768_S1792x768_0_0 : ∀ a, (![0, 0] : Fin 2 → Nat) a + S1792x768.size a ≤ S1792x768.size a
  h_S1792x768 : 0 < S1792x768.numel
  shapeCasts_S12544x768_S64x196x768 : S12544x768.ShapeCasts S64x196x768
  gather_S64x224x224x3_S308x1_S64x308x224x3_023_1_n_n_1_1_6412243_wf : GatherDims.WF S64x224x224x3 S308x1 S64x308x224x3 [0, 2, 3] [1] [] [1] [] 1 ![64, 1, 224, 3]
  gather_S64x14x22x224x3_S308x1_S64x14x22x308x3_0124_3_n_n_3_1_64142213_wf : GatherDims.WF S64x14x22x224x3 S308x1 S64x14x22x308x3 [0, 1, 2, 4] [3] [] [3] [] 1 ![64, 14, 22, 1, 3]
  dot_S1792x1452_S1452x768_S1792x768_1_0_0_1_n_n_wf : DotDims.WF S1792x1452 S1452x768 S1792x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1452.size a ≤ S12544x1452.size a
  hwx0_0 : ∀ i : grid0.Coords, EltTy.bits .bf16 = 32 ∨ (Rect.block (s := S12544x1452) S1792x1452.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1452x768.size a ≤ S1452x768.size a
  hwx0_1 : ∀ i : grid0.Coords, EltTy.bits .bf16 = 32 ∨ (Rect.block (s := S1452x768) S1452x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1792x768.size a ≤ S12544x768.size a
  hwx0_2 : ∀ i : grid0.Coords, EltTy.bits .f32 = 32 ∨ (Rect.block (s := S12544x768) S1792x768.size (cc0_transform_2 i) (hinb0_2 i)).WholeWords (EltTy.packing .f32)

variable [Facts₀]

def gather_S64x224x224x3_S308x1_S64x308x224x3_023_1_n_n_1_1_6412243 : GatherDims S64x224x224x3 S308x1 S64x308x224x3 where
  offsetDims := [0, 2, 3]
  collapsedSliceDims := [1]
  operandBatchingDims := []
  startIndicesBatchingDims := []
  startIndexMap := [1]
  indexVectorDim := 1
  sliceSizes := ![64, 1, 224, 3]
  wf := gather_S64x224x224x3_S308x1_S64x308x224x3_023_1_n_n_1_1_6412243_wf
def gather_S64x14x22x224x3_S308x1_S64x14x22x308x3_0124_3_n_n_3_1_64142213 : GatherDims S64x14x22x224x3 S308x1 S64x14x22x308x3 where
  offsetDims := [0, 1, 2, 4]
  collapsedSliceDims := [3]
  operandBatchingDims := []
  startIndicesBatchingDims := []
  startIndexMap := [3]
  indexVectorDim := 1
  sliceSizes := ![64, 14, 22, 1, 3]
  wf := gather_S64x14x22x224x3_S308x1_S64x14x22x308x3_0124_3_n_n_3_1_64142213_wf
def dot_S1792x1452_S1452x768_S1792x768_1_0_0_1_n_n : DotDims S1792x1452 S1452x768 S1792x768 where
  lhsContracting := [1]
  rhsContracting := [0]
  lhsNonContracting := [0]
  rhsNonContracting := [1]
  lhsBatch := []
  rhsBatch := []
  wf := dot_S1792x1452_S1452x768_S1792x768_1_0_0_1_n_n_wf

abbrev win0_0 : Pipeline.Window sig grid0 :=
  Pipeline.Window.ofSpec (Memref.whole main_v7) S1792x1452.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1452x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1792x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x224x224x3 : Shape := ⟨4, ![64, 224, 224, 3]⟩
abbrev S1452x768 : Shape := ⟨2, ![1452, 768]⟩
abbrev S308 : Shape := ⟨1, ![308]⟩
abbrev S_ : Shape := ⟨0, ![]⟩
abbrev S308x1 : Shape := ⟨2, ![308, 1]⟩
abbrev S1 : Shape := ⟨1, ![1]⟩
abbrev S1x1 : Shape := ⟨2, ![1, 1]⟩
abbrev S64x308x224x3 : Shape := ⟨4, ![64, 308, 224, 3]⟩
abbrev S64x14x22x224x3 : Shape := ⟨5, ![64, 14, 22, 224, 3]⟩
abbrev S64x14x22x308x3 : Shape := ⟨5, ![64, 14, 22, 308, 3]⟩
abbrev S64x14x22x14x22x3 : Shape := ⟨6, ![64, 14, 22, 14, 22, 3]⟩
abbrev S64x14x14x22x22x3 : Shape := ⟨6, ![64, 14, 14, 22, 22, 3]⟩
abbrev S64x196x1452 : Shape := ⟨3, ![64, 196, 1452]⟩
abbrev S64x196x768 : Shape := ⟨3, ![64, 196, 768]⟩

abbrev nBuf : Space → Nat
  | .hbm => 54
  | .vmem => 0
  | .smem => 0
  | _ => 0

abbrev bufTy : (tb : Table) → Fin (tcTables nBuf tb) → BufTy
  | .hbm, ⟨0, _⟩ => ⟨S64x224x224x3, .f32⟩
  | .hbm, ⟨1, _⟩ => ⟨S1452x768, .f32⟩
  | .hbm, ⟨2, _⟩ => ⟨S308, .i32⟩
  | .hbm, ⟨3, _⟩ => ⟨S_, .i32⟩
  | .hbm, ⟨4, _⟩ => ⟨S308, .i32⟩
  | .hbm, ⟨5, _⟩ => ⟨S308, .i1⟩
  | .hbm, ⟨6, _⟩ => ⟨S_, .i32⟩
  | .hbm, ⟨7, _⟩ => ⟨S308, .i32⟩
  | .hbm, ⟨8, _⟩ => ⟨S308, .i32⟩
  | .hbm, ⟨9, _⟩ => ⟨S308, .i32⟩
  | .hbm, ⟨10, _⟩ => ⟨S308x1, .i32⟩
  | .hbm, ⟨11, _⟩ => ⟨S1, .i32⟩
  | .hbm, ⟨12, _⟩ => ⟨S_, .i32⟩
  | .hbm, ⟨13, _⟩ => ⟨S308x1, .i32⟩
  | .hbm, ⟨14, _⟩ => ⟨S308x1, .i1⟩
  | .hbm, ⟨15, _⟩ => ⟨S1x1, .i32⟩
  | .hbm, ⟨16, _⟩ => ⟨S308x1, .i32⟩
  | .hbm, ⟨17, _⟩ => ⟨S308x1, .i1⟩
  | .hbm, ⟨18, _⟩ => ⟨S308x1, .i1⟩
  | .hbm, ⟨19, _⟩ => ⟨S_, .i1⟩
  | .hbm, ⟨20, _⟩ => ⟨S308, .i1⟩
  | .hbm, ⟨21, _⟩ => ⟨S64x308x224x3, .f32⟩
  | .hbm, ⟨22, _⟩ => ⟨S64x308x224x3, .i1⟩
  | .hbm, ⟨23, _⟩ => ⟨S_, .f32⟩
  | .hbm, ⟨24, _⟩ => ⟨S64x308x224x3, .f32⟩
  | .hbm, ⟨25, _⟩ => ⟨S64x308x224x3, .f32⟩
  | .hbm, ⟨26, _⟩ => ⟨S64x14x22x224x3, .f32⟩
  | .hbm, ⟨27, _⟩ => ⟨S_, .i32⟩
  | .hbm, ⟨28, _⟩ => ⟨S308, .i32⟩
  | .hbm, ⟨29, _⟩ => ⟨S308, .i1⟩
  | .hbm, ⟨30, _⟩ => ⟨S_, .i32⟩
  | .hbm, ⟨31, _⟩ => ⟨S308, .i32⟩
  | .hbm, ⟨32, _⟩ => ⟨S308, .i32⟩
  | .hbm, ⟨33, _⟩ => ⟨S308, .i32⟩
  | .hbm, ⟨34, _⟩ => ⟨S308x1, .i32⟩
  | .hbm, ⟨35, _⟩ => ⟨S1, .i32⟩
  | .hbm, ⟨36, _⟩ => ⟨S_, .i32⟩
  | .hbm, ⟨37, _⟩ => ⟨S308x1, .i32⟩
  | .hbm, ⟨38, _⟩ => ⟨S308x1, .i1⟩
  | .hbm, ⟨39, _⟩ => ⟨S1x1, .i32⟩
  | .hbm, ⟨40, _⟩ => ⟨S308x1, .i32⟩
  | .hbm, ⟨41, _⟩ => ⟨S308x1, .i1⟩
  | .hbm, ⟨42, _⟩ => ⟨S308x1, .i1⟩
  | .hbm, ⟨43, _⟩ => ⟨S_, .i1⟩
  | .hbm, ⟨44, _⟩ => ⟨S308, .i1⟩
  | .hbm, ⟨45, _⟩ => ⟨S64x14x22x308x3, .f32⟩
  | .hbm, ⟨46, _⟩ => ⟨S64x14x22x308x3, .i1⟩
  | .hbm, ⟨47, _⟩ => ⟨S_, .f32⟩
  | .hbm, ⟨48, _⟩ => ⟨S64x14x22x308x3, .f32⟩
  | .hbm, ⟨49, _⟩ => ⟨S64x14x22x308x3, .f32⟩
  | .hbm, ⟨50, _⟩ => ⟨S64x14x22x14x22x3, .f32⟩
  | .hbm, ⟨51, _⟩ => ⟨S64x14x14x22x22x3, .f32⟩
  | .hbm, ⟨52, _⟩ => ⟨S64x196x1452, .f32⟩
  | .hbm, ⟨53, _⟩ => ⟨S64x196x768, .f32⟩
  | _, _ => ⟨S64x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]

class Facts₀ : Prop where
  bcast_S_S308 : S_.BroadcastsInDim S308 (![] : Fin 0 → Fin S308.rank)
  bcast_S308_S308x1_0 : S308.BroadcastsInDim S308x1 (![0] : Fin 1 → Fin S308x1.rank)
  bcast_S_S308x1 : S_.BroadcastsInDim S308x1 (![] : Fin 0 → Fin S308x1.rank)
  bcast_S1_S1x1_1 : S1.BroadcastsInDim S1x1 (![1] : Fin 1 → Fin S1x1.rank)
  bcast_S1x1_S308x1_0_1 : S1x1.BroadcastsInDim S308x1 (![0, 1] : Fin 2 → Fin S308x1.rank)
  reducesTo_S308x1_S308_d1 : S308x1.ReducesTo [1] S308
  h_S_ : 0 < S_.numel
  bcast_S308_S64x308x224x3_1 : S308.BroadcastsInDim S64x308x224x3 (![1] : Fin 1 → Fin S64x308x224x3.rank)
  bcast_S_S64x308x224x3 : S_.BroadcastsInDim S64x308x224x3 (![] : Fin 0 → Fin S64x308x224x3.rank)
  shapeCasts_S64x308x224x3_S64x14x22x224x3 : S64x308x224x3.ShapeCasts S64x14x22x224x3
  bcast_S308_S64x14x22x308x3_3 : S308.BroadcastsInDim S64x14x22x308x3 (![3] : Fin 1 → Fin S64x14x22x308x3.rank)
  bcast_S_S64x14x22x308x3 : S_.BroadcastsInDim S64x14x22x308x3 (![] : Fin 0 → Fin S64x14x22x308x3.rank)
  shapeCasts_S64x14x22x308x3_S64x14x22x14x22x3 : S64x14x22x308x3.ShapeCasts S64x14x22x14x22x3
  transposes_S64x14x22x14x22x3_S64x14x14x22x22x3_0_1_3_2_4_5 : S64x14x22x14x22x3.Transposes [0, 1, 3, 2, 4, 5] S64x14x14x22x22x3
  shapeCasts_S64x14x14x22x22x3_S64x196x1452 : S64x14x14x22x22x3.ShapeCasts S64x196x1452
  gather_S64x224x224x3_S308x1_S64x308x224x3_023_1_n_n_1_1_6412243_wf : GatherDims.WF S64x224x224x3 S308x1 S64x308x224x3 [0, 2, 3] [1] [] [1] [] 1 ![64, 1, 224, 3]
  gather_S64x14x22x224x3_S308x1_S64x14x22x308x3_0124_3_n_n_3_1_64142213_wf : GatherDims.WF S64x14x22x224x3 S308x1 S64x14x22x308x3 [0, 1, 2, 4] [3] [] [3] [] 1 ![64, 14, 22, 1, 3]
  dot_S64x196x1452_S1452x768_S64x196x768_2_0_01_1_n_n_wf : DotDims.WF S64x196x1452 S1452x768 S64x196x768 [2] [0] [0, 1] [1] [] []

variable [Facts₀]

def gather_S64x224x224x3_S308x1_S64x308x224x3_023_1_n_n_1_1_6412243 : GatherDims S64x224x224x3 S308x1 S64x308x224x3 where
  offsetDims := [0, 2, 3]
  collapsedSliceDims := [1]
  operandBatchingDims := []
  startIndicesBatchingDims := []
  startIndexMap := [1]
  indexVectorDim := 1
  sliceSizes := ![64, 1, 224, 3]
  wf := gather_S64x224x224x3_S308x1_S64x308x224x3_023_1_n_n_1_1_6412243_wf
def gather_S64x14x22x224x3_S308x1_S64x14x22x308x3_0124_3_n_n_3_1_64142213 : GatherDims S64x14x22x224x3 S308x1 S64x14x22x308x3 where
  offsetDims := [0, 1, 2, 4]
  collapsedSliceDims := [3]
  operandBatchingDims := []
  startIndicesBatchingDims := []
  startIndexMap := [3]
  indexVectorDim := 1
  sliceSizes := ![64, 14, 22, 1, 3]
  wf := gather_S64x14x22x224x3_S308x1_S64x14x22x308x3_0124_3_n_n_3_1_64142213_wf
def dot_S64x196x1452_S1452x768_S64x196x768_2_0_01_1_n_n : DotDims S64x196x1452 S1452x768 S64x196x768 where
  lhsContracting := [2]
  rhsContracting := [0]
  lhsNonContracting := [0, 1]
  rhsNonContracting := [1]
  lhsBatch := []
  rhsBatch := []
  wf := dot_S64x196x1452_S1452x768_S64x196x768_2_0_01_1_n_n_wf

class Facts : Prop extends Facts₀ where

variable [Facts]
-- ==== Proof.Patches.lean ====
/-
  The overlapping-window patch extraction both programs perform before they multiply, as ONE function.

  An image batch `x : [64, 224, 224, 3]` is cut into a 14 × 14 grid of 22 × 22 windows (stride 16, an overlap of 3
  on each side, the edge windows clipped inside the image).  The 14 · 22 = 308 row positions of the windows are one
  table `t` of words; the same table serves the columns.  A position is first normalised as `jnp.take` does
  (a negative position counts from the end: `t + 224` where `t < 0`), then rows are gathered along axis 1, the
  result is regrouped as [64, 14, 22, 224, 3], columns are gathered along axis 3, and the six axes
  (image, window row, row in window, window column, column in window, channel) are permuted to
  (image, window row, window column, row in window, column in window, channel) and flattened to
  [64, 196, 1452]: one row of 22 · 22 · 3 = 1452 numbers per window.  Where a position falls outside `0 … 223`
  the gather is replaced by the fill value the take prescribes; whether that ever happens is a property of the
  table alone and is never needed here: the two programs apply this same function to the same image.
-/
import proofs.«117850_j38044820308624_1_alg».proof.Proof.Gen.KernelIdeal

noncomputable section

namespace Cert.Im2col

open Idealize.ShloMosaic Cert.KernelIdeal Cert.KernelIdeal.Gen

variable {F : FTy → Type} [FloatOps F]

/-- The table of window positions as a vector of 308 words. -/
def table (lit : Fin 308 → BitVec 32) : IVec S308 32 := fun i => lit (S308.rowMajor i)

/-- A position normalised: `t + 224` where `t` is negative, else `t`. -/
def wrapped (t : IVec S308 32) : IVec S308 32 :=
  select (cmpi .slt t (broadcastInDim S308 ![] bcast_S_S308 (constantI S_ 32 0#32)))
    (addi t (broadcastInDim S308 ![] bcast_S_S308 (constantI S_ 32 224#32))) t

/-- The normalised positions as a column of start indices, one per gathered slice. -/
def starts (t : IVec S308 32) : IVec S308x1 32 :=
  broadcastInDim S308x1 ![0] bcast_S308_S308x1_0 (wrapped t)

/-- Which positions lie in `0 … 223`. -/
def inRange (t : IVec S308 32) : IVec S308 1 :=
  Host.reduce IntOp.andi
    (andi (cmpi .sge (starts t) (broadcastInDim S308x1 ![] bcast_S_S308x1 (constantI S_ 32 0#32)))
      (cmpi .sle (starts t) (broadcastInDim S308x1 ![0, 1] bcast_S1x1_S308x1_0_1
        (broadcastInDim S1x1 ![1] bcast_S1_S1x1_1 (constantI S1 32 223#32)))))
    (constantI S_ 1 1#1) reducesTo_S308x1_S308_d1 h_S_

/-- The rows at the table's positions: [64, 224, 224, 3] → [64, 308, 224, 3]. -/
def takeRows (g : GatherDims S64x224x224x3 S308x1 S64x308x224x3) (t : IVec S308 32)
    (x : FVec F S64x224x224x3 .f32) : FVec F S64x308x224x3 .f32 :=
  select (broadcastInDim S64x308x224x3 ![1] bcast_S308_S64x308x224x3_1 (inRange t))
    (Host.gather g x (starts t))
    (broadcastInDim S64x308x224x3 ![] bcast_S_S64x308x224x3 (constant S_ .f32 0x7FC00000#32))

/-- The columns at the table's positions: [64, 14, 22, 224, 3] → [64, 14, 22, 308, 3]. -/
def takeCols (g : GatherDims S64x14x22x224x3 S308x1 S64x14x22x308x3) (t : IVec S308 32)
    (y : FVec F S64x14x22x224x3 .f32) : FVec F S64x14x22x308x3 .f32 :=
  select (broadcastInDim S64x14x22x308x3 ![3] bcast_S308_S64x14x22x308x3_3 (inRange t))
    (Host.gather g y (starts t))
    (broadcastInDim S64x14x22x308x3 ![] bcast_S_S64x14x22x308x3 (constant S_ .f32 0x7FC00000#32))

/-- The windows of an image batch, one flattened window per row: [64, 224, 224, 3] → [64, 196, 1452]. -/
def patches (g₁ : GatherDims S64x224x224x3 S308x1 S64x308x224x3) (g₂ : GatherDims S64x14x22x224x3 S308x1 S64x14x22x308x3)
    (lit : Fin 308 → BitVec 32) (x : FVec F S64x224x224x3 .f32) : FVec F S64x196x1452 .f32 :=
  shapeCast S64x196x1452
    (transpose S64x14x14x22x22x3 [0, 1, 3, 2, 4, 5]
      (shapeCast S64x14x22x14x22x3
        (takeCols g₂ (table lit)
          (shapeCast S64x14x22x224x3 (takeRows g₁ (table lit) x) shapeCasts_S64x308x224x3_S64x14x22x224x3))
        shapeCasts_S64x14x22x308x3_S64x14x22x14x22x3)
      transposes_S64x14x22x14x22x3_S64x14x14x22x22x3_0_1_3_2_4_5)
    shapeCasts_S64x14x14x22x22x3_S64x196x1452

end Cert.Im2col

end
-- ==== Proof.Entry.lean ====
/-
  The two factors of the kernel's matrix product, as the grid finds them.

  The host part of the kernel's program extracts the image's windows (`patches`), lists them as the 12544 rows of a
  matrix with 1452 columns, and recasts that matrix and the weights to a narrower float format.  Read back operation
  by operation, the array the grid's first window stages is exactly that, and the array its second window stages is
  the weights recast.
-/
import proofs.«117850_j38044820308624_1_alg».proof.Proof.Gen.KernelIdeal.Frame
import proofs.«117850_j38044820308624_1_alg».proof.Proof.Patches
import Idealize.ShloMosaic.Lib.StableHlo.Run

noncomputable section

open Idealize.ShloMosaic Idealize.ShloMosaic.TcCoe Idealize.SL.Sem Idealize.ShloMosaic.StableHlo

namespace Cert.KernelIdeal.Entry

open Cert.KernelIdeal Cert.KernelIdeal.Gen

variable {F : FTy → Type} [FloatOps F]
variable (m : (ℓ : Loc nD τ sig) → Buf (Elt F) ℓ)

/-- The left factor as the grid finds it: the 12544 × 1452 matrix of flattened windows. -/
abbrev lhsArr (c : Dev nD) : FVec F S12544x1452 .bf16 := V m c main_v7
/-- The right factor as the grid finds it: the weights. -/
abbrev rhsArr (c : Dev nD) : FVec F S1452x768 .bf16 := V m c main_v8

attribute [local irreducible] Host.reduce Host.gather in
set_option maxRecDepth 16384 in
set_option maxHeartbeats 800000 in
/-- The left factor is the image's windows, rows listed image after image, recast. -/
theorem lhs_entry (c : Dev nD) :
    lhsArr m c = truncf .bf16 (shapeCast S12544x1452
        (Cert.Im2col.patches gather_S64x224x224x3_S308x1_S64x308x224x3_023_1_n_n_1_1_6412243 gather_S64x14x22x224x3_S308x1_S64x14x22x308x3_0124_3_n_n_3_1_64142213 lit0 (m ((c : Thread nD τ).loc main_arg0)))
        shapeCasts_S64x196x1452_S12544x1452) bitsLt_bf16_f32 := by
  dsimp only [lhsArr, V, V0]
  simp only [hostOps0, hostOps0_1, hostOps0_2, hostOps0_3, hostOps0_4, List.flatten_cons, List.flatten_nil, List.append_nil, List.cons_append, List.nil_append]
  after_results_simp
  simp only [cast_eq]
  unfold Cert.Im2col.patches Cert.Im2col.takeCols Cert.Im2col.takeRows Cert.Im2col.inRange Cert.Im2col.starts Cert.Im2col.wrapped Cert.Im2col.table
  rfl

set_option maxRecDepth 16384 in
/-- The right factor is the weights, recast. -/
theorem rhs_entry (c : Dev nD) :
    rhsArr m c = truncf .bf16 (m ((c : Thread nD τ).loc main_arg1)) bitsLt_bf16_f32 := by
  dsimp only [rhsArr, V, V0]
  simp only [hostOps0, hostOps0_1, hostOps0_2, hostOps0_3, hostOps0_4, List.flatten_cons, List.flatten_nil, List.append_nil, List.cons_append, List.nil_append]
  after_results_simp

end Cert.KernelIdeal.Entry

end
-- ==== Proof.Projection.lean ====
/-
  The linear projection of the windows, index by index.

  With `P : [64, 196, 1452]` the flattened windows and `W : [1452, 768]` the weights, the projected window is
      (P · W)[b, n, d] = Σ_k P[b, n, k] · W[k, d],        k ranging over the 1452 numbers of a window.
  A matrix product into a zero accumulator and a general dot product with one contracted axis are both this sum over
  the contraction's one coordinate; the extended reals' sum is over a commutative monoid, so nothing about the order
  or the grouping of the summands is needed, and no number has to be finite.
-/
import proofs.«117850_j38044820308624_1_alg».proof.Proof.Gen.KernelIdeal
import proofs.«117850_j38044820308624_1_alg».proof.Proof.Gen.ReferenceIdeal
import Idealize.ShloMosaic.Lib.ValueIdx
import Idealize.ShloMosaic.Lib.Pipeline.Value
import Idealize.ShloMosaic.PureOps.Ideal.Laws

noncomputable section

open scoped BigOperators

namespace Cert.Proj

open Idealize.ShloMosaic Idealize.ShloMosaic.ValueIdx Cert.KernelIdeal

/-- The projected windows: `(P · W)[b, n, d] = Σ_k P[b, n, k] · W[k, d]`. -/
def proj (P : FVec Ideal S64x196x1452 .f32) (W : FVec Ideal S1452x768 .f32) : FVec Ideal S64x196x768 .f32 :=
  fun j => ∑ k : Fin 1452, P (ix3 (n0 := 64) (n1 := 196) (j 0) (j 1) k) * W (ix2 (n1 := 768) k (j 2))

/-- The same product with the windows of all images listed in one axis of 64 · 196 = 12544 rows. -/
def rowsProd (A : FVec Ideal S12544x1452 .bf16) (B : FVec Ideal S1452x768 .bf16) : FVec Ideal S12544x768 .f32 :=
  fun i => ∑ k : Fin 1452, A (ix2 (n0 := 12544) (i 0) k) * B (ix2 (n1 := 768) k (i 1))

/-! ## A tile of 1792 rows: the matrix product into zero -/

theorem lhs_tile_0 (j : S1792x768.Idx) (k : Cert.KernelIdeal.dot_S1792x1452_S1452x768_S1792x768_1_0_0_1_n_n.contr.Idx) :
    (Cert.KernelIdeal.dot_S1792x1452_S1452x768_S1792x768_1_0_0_1_n_n.lhsIdx j k 0).val = (j 0).val := rfl
theorem lhs_tile_1 (j : S1792x768.Idx) (k : Cert.KernelIdeal.dot_S1792x1452_S1452x768_S1792x768_1_0_0_1_n_n.contr.Idx) :
    (Cert.KernelIdeal.dot_S1792x1452_S1452x768_S1792x768_1_0_0_1_n_n.lhsIdx j k 1).val = (k ⟨0, by decide⟩).val :=
  Cert.KernelIdeal.dot_S1792x1452_S1452x768_S1792x768_1_0_0_1_n_n.lhsIdx_val_of_single (cl := 1) rfl j k
theorem rhs_tile_0 (j : S1792x768.Idx) (k : Cert.KernelIdeal.dot_S1792x1452_S1452x768_S1792x768_1_0_0_1_n_n.contr.Idx) :
    (Cert.KernelIdeal.dot_S1792x1452_S1452x768_S1792x768_1_0_0_1_n_n.rhsIdx j k 0).val = (k ⟨0, by decide⟩).val :=
  Cert.KernelIdeal.dot_S1792x1452_S1452x768_S1792x768_1_0_0_1_n_n.rhsIdx_val_of_single (cr := 0) rfl j k
theorem rhs_tile_1 (j : S1792x768.Idx) (k : Cert.KernelIdeal.dot_S1792x1452_S1452x768_S1792x768_1_0_0_1_n_n.contr.Idx) :
    (Cert.KernelIdeal.dot_S1792x1452_S1452x768_S1792x768_1_0_0_1_n_n.rhsIdx j k 1).val = (j 1).val := rfl

/-- Row `p`, column `q` of a tile's product into the zero accumulator: `Σ_k x0[p, k] · x1[k, q]`. -/
theorem tile_apply (x0 : FVec Ideal S1792x1452 .bf16) (x1 : FVec Ideal S1452x768 .bf16) (p : Fin 1792) (q : Fin 768) :
    matmul (F := Ideal) Cert.KernelIdeal.dot_S1792x1452_S1452x768_S1792x768_1_0_0_1_n_n none x0 x1
        (constant (F := Ideal) S1792x768 .f32 0x00000000#32) (ix2 p q)
      = ∑ k : Fin 1452, x0 (ix2 p k) * x1 (ix2 k q) := by
  simp only [matmul]
  rw [Ideal.matmul_constant_zero_apply]
  rw [← Equiv.sum_comp (contrEquiv1 Cert.KernelIdeal.dot_S1792x1452_S1452x768_S1792x768_1_0_0_1_n_n 1452 rfl rfl).symm]
  refine Finset.sum_congr rfl fun k _ => ?_
  have hk := contrEquiv1_symm_val Cert.KernelIdeal.dot_S1792x1452_S1452x768_S1792x768_1_0_0_1_n_n 1452 rfl rfl k
  congr 1
  · congr 1; funext a; apply Fin.ext
    match a with
    | ⟨0, _⟩ => exact lhs_tile_0 _ _
    | ⟨1, _⟩ => exact (lhs_tile_1 _ _).trans hk
  · congr 1; funext a; apply Fin.ext
    match a with
    | ⟨0, _⟩ => exact (rhs_tile_0 _ _).trans hk
    | ⟨1, _⟩ => exact rhs_tile_1 _ _

/-! ## The general dot product over the windows' last axis -/

theorem lhs_dot_0 (j : S64x196x768.Idx) (k : Cert.ReferenceIdeal.dot_S64x196x1452_S1452x768_S64x196x768_2_0_01_1_n_n.contr.Idx) :
    (Cert.ReferenceIdeal.dot_S64x196x1452_S1452x768_S64x196x768_2_0_01_1_n_n.lhsIdx j k 0).val = (j 0).val := rfl
theorem lhs_dot_1 (j : S64x196x768.Idx) (k : Cert.ReferenceIdeal.dot_S64x196x1452_S1452x768_S64x196x768_2_0_01_1_n_n.contr.Idx) :
    (Cert.ReferenceIdeal.dot_S64x196x1452_S1452x768_S64x196x768_2_0_01_1_n_n.lhsIdx j k 1).val = (j 1).val := rfl
theorem lhs_dot_2 (j : S64x196x768.Idx) (k : Cert.ReferenceIdeal.dot_S64x196x1452_S1452x768_S64x196x768_2_0_01_1_n_n.contr.Idx) :
    (Cert.ReferenceIdeal.dot_S64x196x1452_S1452x768_S64x196x768_2_0_01_1_n_n.lhsIdx j k 2).val = (k ⟨0, by decide⟩).val :=
  Cert.ReferenceIdeal.dot_S64x196x1452_S1452x768_S64x196x768_2_0_01_1_n_n.lhsIdx_val_of_single (cl := 2) rfl j k
theorem rhs_dot_0 (j : S64x196x768.Idx) (k : Cert.ReferenceIdeal.dot_S64x196x1452_S1452x768_S64x196x768_2_0_01_1_n_n.contr.Idx) :
    (Cert.ReferenceIdeal.dot_S64x196x1452_S1452x768_S64x196x768_2_0_01_1_n_n.rhsIdx j k 0).val = (k ⟨0, by decide⟩).val :=
  Cert.ReferenceIdeal.dot_S64x196x1452_S1452x768_S64x196x768_2_0_01_1_n_n.rhsIdx_val_of_single (cr := 0) rfl j k
theorem rhs_dot_1 (j : S64x196x768.Idx) (k : Cert.ReferenceIdeal.dot_S64x196x1452_S1452x768_S64x196x768_2_0_01_1_n_n.contr.Idx) :
    (Cert.ReferenceIdeal.dot_S64x196x1452_S1452x768_S64x196x768_2_0_01_1_n_n.rhsIdx j k 1).val = (j 2).val := rfl

/-- The general dot product contracting the windows' last axis against the weights' first is `proj`. -/
theorem dot_eq_proj (P : FVec Ideal S64x196x1452 .f32) (W : FVec Ideal S1452x768 .f32) :
    Host.dotGeneral (F := Ideal) Cert.ReferenceIdeal.dot_S64x196x1452_S1452x768_S64x196x768_2_0_01_1_n_n none P W = proj P W := by
  funext j
  simp only [Host.dotGeneral]
  rw [Ideal.dotGeneral_apply]
  rw [← Equiv.sum_comp (contrEquiv1 Cert.ReferenceIdeal.dot_S64x196x1452_S1452x768_S64x196x768_2_0_01_1_n_n 1452 rfl rfl).symm]
  refine Finset.sum_congr rfl fun k _ => ?_
  have hk := contrEquiv1_symm_val Cert.ReferenceIdeal.dot_S64x196x1452_S1452x768_S64x196x768_2_0_01_1_n_n 1452 rfl rfl k
  congr 1
  · congr 1; funext a; apply Fin.ext
    match a with
    | ⟨0, _⟩ => exact lhs_dot_0 _ _
    | ⟨1, _⟩ => exact lhs_dot_1 _ _
    | ⟨2, _⟩ => exact (lhs_dot_2 _ _).trans hk
  · congr 1; funext a; apply Fin.ext
    match a with
    | ⟨0, _⟩ => exact (rhs_dot_0 _ _).trans hk
    | ⟨1, _⟩ => exact rhs_dot_1 _ _

/-! ## The 12544-row product, regrouped by image, is the projection of the windows -/

/-- Row `b · 196 + n` of the 12544-row list is window `n` of image `b`; a change of float format is the identity on
    the extended reals; so the row product read back as [64, 196, 768] is `proj`. -/
theorem rows_eq_proj (P : FVec Ideal S64x196x1452 .f32) (W : FVec Ideal S1452x768 .f32)
    (h₁ : S64x196x1452.ShapeCasts S12544x1452) (h₂ : S12544x768.ShapeCasts S64x196x768)
    (hb : FTy.bits .bf16 < FTy.bits .f32) :
    shapeCast S64x196x768 (rowsProd (truncf .bf16 (shapeCast S12544x1452 P h₁) hb) (truncf .bf16 W hb)) h₂ = proj P W := by
  funext j
  obtain ⟨b, n, d, rfl⟩ : ∃ (b : Fin 64) (n : Fin 196) (d : Fin 768), j = ix3 b n d := ⟨j 0, j 1, j 2, eq_ix3 j⟩
  have hb' : b.val < 64 := b.isLt
  have hn' : n.val < 196 := n.isLt
  rw [shapeCast_apply _ h₂ (ix3 b n d) (ix2 (n0 := 12544) (n1 := 768) ⟨b.val * 196 + n.val, by omega⟩ d) (by
    rw [Shape.rowMajor_val_two, Shape.rowMajor_val_three]; rfl)]
  show (∑ k : Fin 1452, _) = ∑ k : Fin 1452, _
  refine Finset.sum_congr rfl fun k _ => ?_
  congr 1
  exact shapeCast_apply P h₁ _ (ix3 b n k) (by
    rw [Shape.rowMajor_val_three, Shape.rowMajor_val_two]; rfl)

end Cert.Proj

end
-- ==== Proof.Point.lean ====
/-
  One grid point of the kernel's matrix product.

  The grid has seven points.  Point `t` takes rows `1792 t … 1792 t + 1791` of the left factor (the 12544 × 1452 matrix
  of flattened windows) and ALL of the right factor (the weights), multiplies them into a zero accumulator and writes
  the product to the same rows of the result.  A row of a matrix product depends only on the same row of the left
  factor, so what point `t` writes is block `t` of ONE function of the two factors,
      rowsProd A B [r, d] = Σ_k A[r, k] · B[k, d].
-/
import proofs.«117850_j38044820308624_1_alg».proof.Proof.Gen.KernelIdeal.Frame
import proofs.«117850_j38044820308624_1_alg».proof.Proof.Entry
import proofs.«117850_j38044820308624_1_alg».proof.Proof.Projection
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Point

open Cert.KernelIdeal Cert.KernelIdeal.Gen Cert.KernelIdeal.Entry Cert.Proj

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the left factor's and the result's at row block `t`, the weights'
    always at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A coordinate `E = I · S + Y` with block size `S = 1792` and block index `I = T`. -/
theorem at_block (E I S Y T : Nat) (h : E = I * S + Y) (hS : S = 1792) (hI : I = T) : E = T * 1792 + Y := by
  subst hS hI; exact h

/-! ## Where a block's element sits in its array -/

/-- Row `x 0` of the left block at point `t` is row `1792 t + x 0` of the left factor. -/
theorem lhs_row (t : Fin cfg0.N) (x : ((cfg0.win 0).xblock (cfg0.grid.coords t)).Idx) :
    ((((cfg0.win 0).blk t).view.emb x) (0 : Fin 2) : Nat) = t.val * 1792 + (x (0 : Fin 2) : Nat) :=
  at_block _ _ _ _ _ ((cfg0.win 0).rect_emb_val t x (0 : Fin 2)) rfl (idx_facts t).1
/-- Its columns are the left factor's. -/
theorem lhs_col (t : Fin cfg0.N) (x : ((cfg0.win 0).xblock (cfg0.grid.coords t)).Idx) :
    ((((cfg0.win 0).blk t).view.emb x) (1 : Fin 2) : Nat) = (x (1 : Fin 2) : Nat) :=
  (cfg0.win 0).rect_emb_val_of_index_zero t (1 : Fin 2) (idx_facts t).2.1 x
/-- The right block is the whole right factor: rows … -/
theorem rhs_row (t : Fin cfg0.N) (x : ((cfg0.win 1).xblock (cfg0.grid.coords t)).Idx) :
    ((((cfg0.win 1).blk t).view.emb x) (0 : Fin 2) : Nat) = (x (0 : Fin 2) : Nat) :=
  (cfg0.win 1).rect_emb_val_of_index_zero t (0 : Fin 2) (idx_facts t).2.2.1 x
/-- … and columns. -/
theorem rhs_col (t : Fin cfg0.N) (x : ((cfg0.win 1).xblock (cfg0.grid.coords t)).Idx) :
    ((((cfg0.win 1).blk t).view.emb x) (1 : Fin 2) : Nat) = (x (1 : Fin 2) : Nat) :=
  (cfg0.win 1).rect_emb_val_of_index_zero t (1 : Fin 2) (idx_facts t).2.2.2.1 x
/-- Row `y 0` of the result block at point `t` is row `1792 t + y 0` of the result. -/
theorem out_row (t : Fin cfg0.N) (y : ((cfg0.win 2).xblock (cfg0.grid.coords t)).Idx) :
    ((((cfg0.win 2).blk t).view.emb y) (0 : Fin 2) : Nat) = t.val * 1792 + (y (0 : Fin 2) : Nat) :=
  at_block _ _ _ _ _ ((cfg0.win 2).rect_emb_val t y (0 : Fin 2)) rfl (idx_facts t).2.2.2.2.1
/-- Its columns are the result's. -/
theorem out_col (t : Fin cfg0.N) (y : ((cfg0.win 2).xblock (cfg0.grid.coords t)).Idx) :
    ((((cfg0.win 2).blk t).view.emb y) (1 : Fin 2) : Nat) = (y (1 : Fin 2) : Nat) :=
  (cfg0.win 2).rect_emb_val_of_index_zero t (1 : Fin 2) (idx_facts t).2.2.2.2.2 y

/-! ## The body's value -/

/-- The body's stored value at row `y 0`, column `y 1` of the tile: the row of the left block times the column of
    the right block. -/
theorem pay_apply (x0 : Vec Ideal S1792x1452 .bf16) (x1 : Vec Ideal S1452x768 .bf16) (y : S1792x768.Idx) :
    k0_pay1 x0 x1 y = ∑ k : Fin 1452, x0 (ix2 (n0 := 1792) (y 0) k) * x1 (ix2 (n1 := 768) k (y 1)) := by
  obtain ⟨p, q, rfl⟩ : ∃ (p : Fin 1792) (q : Fin 768), y = ix2 p q := ⟨y 0, y 1, eq_ix2 y⟩
  unfold k0_pay1
  simp only [shapeCast_self]
  exact tile_apply x0 x1 p q

/-- If a left block is rows `1792 s …` of `A` and a right block is all of `B`, the body's stored value at tile index
    `y` is the row product of `A` and `B` at row `1792 s + y 0`, column `y 1`. -/
theorem point_value (A : FVec Ideal S12544x1452 .bf16) (B : FVec Ideal S1452x768 .bf16)
    (x0 : Vec Ideal S1792x1452 .bf16) (x1 : Vec Ideal S1452x768 .bf16) (s : Nat)
    (h0 : ∀ (x : S1792x1452.Idx) (i : S12544x1452.Idx), (i 0).val = s * 1792 + (x 0).val → (i 1).val = (x 1).val → x0 x = A i)
    (h1 : ∀ x : S1452x768.Idx, x1 x = B x)
    (y : S1792x768.Idx) (i : S12544x768.Idx) (r0 : (i 0).val = s * 1792 + (y 0).val) (r1 : (i 1).val = (y 1).val) :
    k0_pay1 x0 x1 y = rowsProd A B i := by
  rw [pay_apply]
  unfold rowsProd
  refine Finset.sum_congr rfl fun k _ => ?_
  rw [h0 (ix2 (n0 := 1792) (n1 := 1452) (y 0) k) (ix2 (n0 := 12544) (n1 := 1452) (i 0) k) r0 rfl, h1]
  have e : (ix2 (n0 := 1452) (n1 := 768) k (y 1)) = ix2 (n0 := 1452) (n1 := 768) k (i 1) := by
    funext a
    apply Fin.ext
    match a with
    | ⟨0, _⟩ => rfl
    | ⟨1, _⟩ => exact r1.symm
  rw [e]

/-- The left factor's block at point `t` is its rows `1792 t …`. (The factor is named once and kept as a name: the
    equation is about WHERE the block reads it, never about what it holds.) -/
theorem lhs_blk (c : Dev nD) (t : Fin cfg0.N) (x : S1792x1452.Idx) (i : S12544x1452.Idx)
    (h0 : (i 0).val = t.val * 1792 + (x 0).val) (h1 : (i 1).val = (x 1).val) :
    (iblk m c 0 t : Vec Ideal S1792x1452 .bf16) x = lhsArr m c i := by
  unfold iblk
  rw [View.read_apply]
  show cast _ (lhsArr m c (((cfg0.win 0).blk t).view.emb x)) = lhsArr m c i
  generalize lhsArr m c = A
  refine (cast_eq _ _).trans (congrArg A (funext fun a => Fin.ext ?_))
  match a with
  | ⟨0, _⟩ => exact (lhs_row t x).trans h0.symm
  | ⟨1, _⟩ => exact (lhs_col t x).trans h1.symm

/-- The right factor's block at every point is the whole right factor. -/
theorem rhs_blk (c : Dev nD) (t : Fin cfg0.N) (x : S1452x768.Idx) :
    (iblk m c 1 t : Vec Ideal S1452x768 .bf16) x = rhsArr m c x := by
  unfold iblk
  rw [View.read_apply]
  show cast _ (rhsArr m c (((cfg0.win 1).blk t).view.emb x)) = rhsArr m c x
  generalize rhsArr m c = B
  refine (cast_eq _ _).trans (congrArg B (funext fun a => Fin.ext ?_))
  match a with
  | ⟨0, _⟩ => exact rhs_row t x
  | ⟨1, _⟩ => exact rhs_col t x

/-- What point `t` writes back is block `t` of the row product of the two factors. (The body's value and the row
    product are each named once and kept as names while the block is read through the window.) -/
theorem flushed_eq (c : Dev nD) (t : Fin cfg0.N) :
    (dats m 0 c).flushed 2 t = ((cfg0.win 2).blk t).view.read (Elt Ideal) (rowsProd (lhsArr m c) (rhsArr m c)) := by
  have hP : ∀ y : S1792x768.Idx, k0_pay1 (iblk m c 0 t) (iblk m c 1 t) y
      = rowsProd (lhsArr m c) (rhsArr m c) (((cfg0.win 2).blk t).view.emb y) := fun y =>
    point_value (lhsArr m c) (rhsArr m c) (iblk m c 0 t) (iblk m c 1 t) t.val
      (fun x i => lhs_blk m c t x i) (fun x => rhs_blk m c t x) y (((cfg0.win 2).blk t).view.emb y) (out_row t y) (out_col t y)
  show (cfg0.win 2).cut (grid0.coords t) ((dats m 0 c).after 2 t) = _
  rw [after0_2]
  unfold out0_2
  rw [View.canon_unit_zero hz]
  simp only [View.ld_unit_zero (S := S1792x1452) hz, View.ld_unit_zero (S := S1452x768) hz]
  generalize k0_pay1 (iblk m c 0 t) (iblk m c 1 t) = P at hP ⊢
  generalize rowsProd (lhsArr m c) (rhsArr m c) = G at hP ⊢
  funext y
  rw [View.read_apply]
  exact (hP y).trans (cast_eq _ _).symm

end Cert.KernelIdeal.Point

end
-- ==== Proof.Tiles.lean ====
/-
  The seven row blocks tile the result: row `r` of the 12544 rows is written by point `r / 1792`, so after the grid
  the result array holds the row product of the two factors everywhere.
-/
import proofs.«117850_j38044820308624_1_alg».proof.Proof.Point

noncomputable section

open Idealize.ShloMosaic Idealize.ShloMosaic.TcCoe Idealize.SL.Sem Idealize.ShloMosaic.ValueIdx
open Idealize.ShloMosaic.Pipeline (Dat)
open scoped BigOperators

namespace Cert.KernelIdeal.Tiles

open Cert.KernelIdeal Cert.KernelIdeal.Gen Cert.KernelIdeal.Entry Cert.Proj Cert.KernelIdeal.Point

variable (m : (ℓ : Loc nD τ sig) → Buf (Elt Ideal) ℓ) (ρ : Dev nD → PrngReg)

/-- `v` lies in block `v / 1792` of blocks of 1792. -/
theorem in_block (I S X v : Nat) (hS : S = 1792) (hX : X = 1792) (hI : I = v / 1792) : I * S ≤ v ∧ v < I * S + X := by
  subst hS hX hI; omega

/-- `v < 768` lies in the one block of 768 at the origin. -/
theorem in_origin (I S X v : Nat) (hI : I = 0) (hX : X = 768) (hv : v < 768) : I * S ≤ v ∧ v < I * S + X := by
  subst hI hX; rw [Nat.zero_mul]; omega

/-- Row `r` of the result is written by point `r / 1792`. -/
theorem cover (i : S12544x768.Idx) :
    ∃ t : Fin cfg0.N, (cfg0.win 2).flush t = true ∧ i ∈ ((cfg0.win 2).blk t).view.set := by
  have hi0 : (i 0).val < 12544 := (i 0).isLt
  have hi1 : (i 1).val < 768 := (i 1).isLt
  have hN : cfg0.N = 7 := N_0
  have ht : (i 0).val / 1792 < cfg0.N := by rw [hN]; omega
  refine ⟨⟨(i 0).val / 1792, ht⟩, flush0_2 _, ?_⟩
  show i ∈ ((View.whole main_v9).slice (win0_2.rect ⟨(i 0).val / 1792, ht⟩)).set
  rw [View.set_slice_whole, Rect.mem_set_unit]
  obtain ⟨-, -, -, -, e4, e5⟩ := idx_facts ⟨(i 0).val / 1792, ht⟩
  intro a
  match a with
  | ⟨0, _⟩ => exact in_block _ _ _ _ rfl rfl e4
  | ⟨1, _⟩ => exact in_origin _ _ _ _ e5 rfl hi1

/-- The result array after the grid: the row product of the two factors. -/
theorem final (c : Dev nD) : (dats m 0 c).arrAt 2 cfg0.N = rowsProd (lhsArr m c) (rhsArr m c) :=
  (dats m 0 c).arrAt_eq_of_cover 2 (rowsProd (lhsArr m c) (rhsArr m c)) (fun t _ => flushed_eq m c t) cover

end Cert.KernelIdeal.Tiles

end
-- ==== Proof.RowsValue.lean ====
/-
  What the kernel's program computes, at the extended reals.

  After the grid the result array holds the row product of the 12544 × 1452 matrix of flattened windows with the
  weights.  The one host operation after the grid regroups the 12544 rows by image, [64, 196, 768]; row
  `196 b + n` is window `n` of image `b`, so the regrouped product is the projection of every window by the weights.
-/
import proofs.«117850_j38044820308624_1_alg».proof.Proof.Tiles
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Rows

open Cert.KernelIdeal Cert.KernelIdeal.Gen Cert.KernelIdeal.Entry Cert.Proj Cert.KernelIdeal.Tiles

variable (m : (ℓ : Loc nD τ sig) → Buf (Elt Ideal) ℓ) (ρ : Dev nD → PrngReg)

/-- The program's result: the row product regrouped by image. -/
theorem tail_eq (c : Dev nD) :
    Pipeline.afterTail₀ cfgs (dats m) 0 (V0 m) [hostOps1] c main_v10
      = shapeCast S64x196x768 (rowsProd (lhsArr m c) (rhsArr m c)) shapeCasts_S12544x768_S64x196x768 := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v9)
      = rowsProd (lhsArr m c) (rhsArr m c) from (Pipeline.withArrays_arr spec0 launch0.win.arr_inj c _ _ 2).trans (final m c)]
  generalize rowsProd (lhsArr m c) (rhsArr m c) = X
  rfl

/-- … which is the projection of the image's windows by the weights. -/
theorem value_eq (c : Dev nD) :
    shapeCast S64x196x768 (rowsProd (lhsArr m c) (rhsArr m c)) shapeCasts_S12544x768_S64x196x768
      = proj (Cert.Im2col.patches gather_S64x224x224x3_S308x1_S64x308x224x3_023_1_n_n_1_1_6412243 gather_S64x14x22x224x3_S308x1_S64x14x22x308x3_0124_3_n_n_3_1_64142213 lit0 (m ((c : Thread nD τ).loc main_arg0))) (m ((c : Thread nD τ).loc main_arg1)) := by
  rw [lhs_entry, rhs_entry]
  exact rows_eq_proj _ _ _ _ _

/-- Every weakly fair execution of the kernel's program terminates with the result at the projection of the image's
    windows by the weights, and with both arguments as they were. -/
theorem run : θ_run defs (onTc (τ := τ) (main (F := Ideal))) ⟨m, fun _ => 0, ρ⟩ fun r => ∀ c : Dev nD,
      r.2.mem ((c.tc : Thread nD τ).loc main_v10)
          = proj (Cert.Im2col.patches gather_S64x224x224x3_S308x1_S64x308x224x3_023_1_n_n_1_1_6412243 gather_S64x14x22x224x3_S308x1_S64x14x22x308x3_0124_3_n_n_3_1_64142213 lit0 (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans ((tail_eq m c).trans (value_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Rows

end
-- ==== Proof.RefRun.lean ====
/-
  The reference program's run, read back.

  The reference is a straight line of host operations: the table of window positions, the two gathers (rows, then
  columns) each with the position normalisation and the in-range test that `take` brings, the regrouping and the
  permutation of the axes, and ONE general dot product of the windows [64, 196, 1452] with the weights [1452, 768].
  Listed in order (the three outlined functions' operations at their call sites, over each call's own buffers) the
  program is that list run in sequence; every weakly fair execution then ends with each buffer at the operations'
  composed value, and at the result buffer that value is the dot product of `patches` of the image with the weights.
-/
import proofs.«117850_j38044820308624_1_alg».proof.Proof.Gen.ReferenceIdeal
import proofs.«117850_j38044820308624_1_alg».proof.Proof.Patches
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 52 operations, in order. -/
abbrev ops : List (HloOp τ sig (Elt F)) :=
  [ StableHlo.nullary main_c (fun i => lit0 (S308.rowMajor i)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S308, .i32⟩) (broadcastInDim S308 ![] bcast_S_S308),
    StableHlo.TRef.binary (.of main_c : StableHlo.TRef sig ⟨S308, .i32⟩) (.of main_call0_v0 : StableHlo.TRef sig ⟨S308, .i32⟩) (.of main_call0_v1 : StableHlo.TRef sig ⟨S308, .i1⟩) (cmpi .slt),
    StableHlo.TRef.nullary (.of main_call0_c_0 : StableHlo.TRef sig ⟨S_, .i32⟩) (constantI S_ 32 224#32),
    StableHlo.TRef.unary (.of main_call0_c_0 : StableHlo.TRef sig ⟨S_, .i32⟩) (.of main_call0_v2 : StableHlo.TRef sig ⟨S308, .i32⟩) (broadcastInDim S308 ![] bcast_S_S308),
    StableHlo.TRef.binary (.of main_c : StableHlo.TRef sig ⟨S308, .i32⟩) (.of main_call0_v2 : StableHlo.TRef sig ⟨S308, .i32⟩) (.of main_call0_v3 : StableHlo.TRef sig ⟨S308, .i32⟩) addi,
    StableHlo.TRef.ternary (.of main_call0_v1 : StableHlo.TRef sig ⟨S308, .i1⟩) (.of main_call0_v3 : StableHlo.TRef sig ⟨S308, .i32⟩) (.of main_c : StableHlo.TRef sig ⟨S308, .i32⟩) (.of main_call0_v4 : StableHlo.TRef sig ⟨S308, .i32⟩) select,
    StableHlo.TRef.unary main_call0_call0.v0 (.of main_call0_v5 : StableHlo.TRef sig ⟨S308x1, .i32⟩) (broadcastInDim S308x1 ![0] bcast_S308_S308x1_0),
    StableHlo.TRef.nullary (.of main_call0_c_1 : StableHlo.TRef sig ⟨S1, .i32⟩) (constantI S1 32 223#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S308x1, .i32⟩) (broadcastInDim S308x1 ![] bcast_S_S308x1),
    StableHlo.TRef.binary (.of main_call0_v5 : StableHlo.TRef sig ⟨S308x1, .i32⟩) (.of main_call0_v6 : StableHlo.TRef sig ⟨S308x1, .i32⟩) (.of main_call0_v7 : StableHlo.TRef sig ⟨S308x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S308x1, .i32⟩) (broadcastInDim S308x1 ![0, 1] bcast_S1x1_S308x1_0_1),
    StableHlo.TRef.binary (.of main_call0_v5 : StableHlo.TRef sig ⟨S308x1, .i32⟩) (.of main_call0_v9 : StableHlo.TRef sig ⟨S308x1, .i32⟩) (.of main_call0_v10 : StableHlo.TRef sig ⟨S308x1, .i1⟩) (cmpi .sle),
    StableHlo.TRef.binary (.of main_call0_v7 : StableHlo.TRef sig ⟨S308x1, .i1⟩) (.of main_call0_v10 : StableHlo.TRef sig ⟨S308x1, .i1⟩) (.of main_call0_v11 : StableHlo.TRef sig ⟨S308x1, .i1⟩) andi,
    StableHlo.TRef.nullary (.of main_call0_c_3 : StableHlo.TRef sig ⟨S_, .i1⟩) (constantI S_ 1 1#1),
    StableHlo.TRef.binary (.of main_call0_v11 : StableHlo.TRef sig ⟨S308x1, .i1⟩) (.of main_call0_c_3 : StableHlo.TRef sig ⟨S_, .i1⟩) (.of main_call0_v12 : StableHlo.TRef sig ⟨S308, .i1⟩) (fun x v => Host.reduce IntOp.andi x v reducesTo_S308x1_S308_d1 h_S_),
    StableHlo.TRef.binary (.of main_arg0 : StableHlo.TRef sig ⟨S64x224x224x3, .f32⟩) (.of main_call0_v5 : StableHlo.TRef sig ⟨S308x1, .i32⟩) (.of main_call0_v13 : StableHlo.TRef sig ⟨S64x308x224x3, .f32⟩) (fun x i => Host.gather gather_S64x224x224x3_S308x1_S64x308x224x3_023_1_n_n_1_1_6412243 x i),
    StableHlo.TRef.unary (.of main_call0_v12 : StableHlo.TRef sig ⟨S308, .i1⟩) (.of main_call0_v14 : StableHlo.TRef sig ⟨S64x308x224x3, .i1⟩) (broadcastInDim S64x308x224x3 ![1] bcast_S308_S64x308x224x3_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S64x308x224x3, .f32⟩) (broadcastInDim S64x308x224x3 ![] bcast_S_S64x308x224x3),
    StableHlo.TRef.ternary (.of main_call0_v14 : StableHlo.TRef sig ⟨S64x308x224x3, .i1⟩) (.of main_call0_v13 : StableHlo.TRef sig ⟨S64x308x224x3, .f32⟩) (.of main_call0_v15 : StableHlo.TRef sig ⟨S64x308x224x3, .f32⟩) (.of main_v0 : StableHlo.TRef sig ⟨S64x308x224x3, .f32⟩) select,
    StableHlo.reshape main_v0 main_v1 rfl shapeCasts_S64x308x224x3_S64x14x22x224x3,
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S308, .i32⟩) (broadcastInDim S308 ![] bcast_S_S308),
    StableHlo.TRef.binary (.of main_c : StableHlo.TRef sig ⟨S308, .i32⟩) (.of main_call1_v0 : StableHlo.TRef sig ⟨S308, .i32⟩) (.of main_call1_v1 : StableHlo.TRef sig ⟨S308, .i1⟩) (cmpi .slt),
    StableHlo.TRef.nullary (.of main_call1_c_0 : StableHlo.TRef sig ⟨S_, .i32⟩) (constantI S_ 32 224#32),
    StableHlo.TRef.unary (.of main_call1_c_0 : StableHlo.TRef sig ⟨S_, .i32⟩) (.of main_call1_v2 : StableHlo.TRef sig ⟨S308, .i32⟩) (broadcastInDim S308 ![] bcast_S_S308),
    StableHlo.TRef.binary (.of main_c : StableHlo.TRef sig ⟨S308, .i32⟩) (.of main_call1_v2 : StableHlo.TRef sig ⟨S308, .i32⟩) (.of main_call1_v3 : StableHlo.TRef sig ⟨S308, .i32⟩) addi,
    StableHlo.TRef.ternary (.of main_call1_v1 : StableHlo.TRef sig ⟨S308, .i1⟩) (.of main_call1_v3 : StableHlo.TRef sig ⟨S308, .i32⟩) (.of main_c : StableHlo.TRef sig ⟨S308, .i32⟩) (.of main_call1_v4 : StableHlo.TRef sig ⟨S308, .i32⟩) select,
    StableHlo.TRef.unary main_call1_call0.v0 (.of main_call1_v5 : StableHlo.TRef sig ⟨S308x1, .i32⟩) (broadcastInDim S308x1 ![0] bcast_S308_S308x1_0),
    StableHlo.TRef.nullary (.of main_call1_c_1 : StableHlo.TRef sig ⟨S1, .i32⟩) (constantI S1 32 223#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S308x1, .i32⟩) (broadcastInDim S308x1 ![] bcast_S_S308x1),
    StableHlo.TRef.binary (.of main_call1_v5 : StableHlo.TRef sig ⟨S308x1, .i32⟩) (.of main_call1_v6 : StableHlo.TRef sig ⟨S308x1, .i32⟩) (.of main_call1_v7 : StableHlo.TRef sig ⟨S308x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S308x1, .i32⟩) (broadcastInDim S308x1 ![0, 1] bcast_S1x1_S308x1_0_1),
    StableHlo.TRef.binary (.of main_call1_v5 : StableHlo.TRef sig ⟨S308x1, .i32⟩) (.of main_call1_v9 : StableHlo.TRef sig ⟨S308x1, .i32⟩) (.of main_call1_v10 : StableHlo.TRef sig ⟨S308x1, .i1⟩) (cmpi .sle),
    StableHlo.TRef.binary (.of main_call1_v7 : StableHlo.TRef sig ⟨S308x1, .i1⟩) (.of main_call1_v10 : StableHlo.TRef sig ⟨S308x1, .i1⟩) (.of main_call1_v11 : StableHlo.TRef sig ⟨S308x1, .i1⟩) andi,
    StableHlo.TRef.nullary (.of main_call1_c_3 : StableHlo.TRef sig ⟨S_, .i1⟩) (constantI S_ 1 1#1),
    StableHlo.TRef.binary (.of main_call1_v11 : StableHlo.TRef sig ⟨S308x1, .i1⟩) (.of main_call1_c_3 : StableHlo.TRef sig ⟨S_, .i1⟩) (.of main_call1_v12 : StableHlo.TRef sig ⟨S308, .i1⟩) (fun x v => Host.reduce IntOp.andi x v reducesTo_S308x1_S308_d1 h_S_),
    StableHlo.TRef.binary (.of main_v1 : StableHlo.TRef sig ⟨S64x14x22x224x3, .f32⟩) (.of main_call1_v5 : StableHlo.TRef sig ⟨S308x1, .i32⟩) (.of main_call1_v13 : StableHlo.TRef sig ⟨S64x14x22x308x3, .f32⟩) (fun x i => Host.gather gather_S64x14x22x224x3_S308x1_S64x14x22x308x3_0124_3_n_n_3_1_64142213 x i),
    StableHlo.TRef.unary (.of main_call1_v12 : StableHlo.TRef sig ⟨S308, .i1⟩) (.of main_call1_v14 : StableHlo.TRef sig ⟨S64x14x22x308x3, .i1⟩) (broadcastInDim S64x14x22x308x3 ![3] bcast_S308_S64x14x22x308x3_3),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S64x14x22x308x3, .f32⟩) (broadcastInDim S64x14x22x308x3 ![] bcast_S_S64x14x22x308x3),
    StableHlo.TRef.ternary (.of main_call1_v14 : StableHlo.TRef sig ⟨S64x14x22x308x3, .i1⟩) (.of main_call1_v13 : StableHlo.TRef sig ⟨S64x14x22x308x3, .f32⟩) (.of main_call1_v15 : StableHlo.TRef sig ⟨S64x14x22x308x3, .f32⟩) (.of main_v2 : StableHlo.TRef sig ⟨S64x14x22x308x3, .f32⟩) select,
    StableHlo.reshape main_v2 main_v3 rfl shapeCasts_S64x14x22x308x3_S64x14x22x14x22x3,
    StableHlo.unary main_v3 main_v4 ((transpose S64x14x14x22x22x3 [0, 1, 3, 2, 4, 5] · transposes_S64x14x22x14x22x3_S64x14x14x22x22x3_0_1_3_2_4_5) : (⟨S64x14x22x14x22x3, .f32⟩ : BufTy).Contents (Elt F) → (⟨S64x14x14x22x22x3, .f32⟩ : BufTy).Contents (Elt F)),
    StableHlo.reshape main_v4 main_v5 rfl shapeCasts_S64x14x14x22x22x3_S64x196x1452,
    StableHlo.binary main_v5 main_arg1 main_v6 ((fun l r => Host.dotGeneral dot_S64x196x1452_S1452x768_S64x196x768_2_0_01_1_n_n none l r) : (⟨S64x196x1452, .f32⟩ : BufTy).Contents (Elt F) → (⟨S1452x768, .f32⟩ : BufTy).Contents (Elt F) → (⟨S64x196x768, .f32⟩ : BufTy).Contents (Elt F)) ]

set_option maxRecDepth 4096 in
/-- The reference is that straight line: the outlined functions unfolded at their calls, sequencing reassociated. -/
theorem main_eq (c : Dev nD) : main (F := F) c = seq ops := by
  simp only [main, fn_take.body, fn_take_0.body, fn_where.body, seq, bind_assoc, pure_bind]

attribute [local irreducible] Host.reduce Host.gather in
set_option maxRecDepth 16384 in
set_option maxHeartbeats 800000 in
/-- At the result buffer the operations compose to the dot product of the image's windows with the weights: each
    operation's value is read at its own buffer and passed through at every other, and what is left is `patches`
    spelt out; the gathers and the reduction stay folded, the equation never looks inside them. -/
theorem out_eq (V : Valuation τ sig (Elt F)) :
    after ops V (main_v6 : DevRef τ sig)
      = Host.dotGeneral dot_S64x196x1452_S1452x768_S64x196x768_2_0_01_1_n_n none
          (Cert.Im2col.patches gather_S64x224x224x3_S308x1_S64x308x224x3_023_1_n_n_1_1_6412243 gather_S64x14x22x224x3_S308x1_S64x14x22x308x3_0124_3_n_n_3_1_64142213 lit0 (V (main_arg0 : DevRef τ sig)))
          (V (main_arg1 : DevRef τ sig)) := by
  after_results_simp
  simp only [cast_eq]
  unfold Cert.Im2col.patches Cert.Im2col.takeCols Cert.Im2col.takeRows Cert.Im2col.inRange Cert.Im2col.starts Cert.Im2col.wrapped Cert.Im2col.table
  rfl

set_option maxRecDepth 16384 in
theorem arg0_eq (V : Valuation τ sig (Elt F)) : after ops V (main_arg0 : DevRef τ sig) = V (main_arg0 : DevRef τ sig) := by
  after_results_simp

set_option maxRecDepth 16384 in
theorem arg1_eq (V : Valuation τ sig (Elt F)) : after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., reshape_bufs_sub .., binary_bufs_sub ..⟩

/-- Every weakly fair execution of the reference terminates with the result at the dot product of the image's windows
    with the weights, and with both arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = Host.dotGeneral dot_S64x196x1452_S1452x768_S64x196x768_2_0_01_1_n_n none
              (Cert.Im2col.patches gather_S64x224x224x3_S308x1_S64x308x224x3_023_1_n_n_1_1_6412243 gather_S64x14x22x224x3_S308x1_S64x14x22x308x3_0124_3_n_n_3_1_64142213 lit0 (m ((c.tc : Thread nD τ).loc main_arg0)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.Bridge.lean ====
/-
  The two programs compute one function.

  Both cut the image into the same windows with the same table of positions (the two printed tables agree word for
  word, and the two gathers have the same dimension numbers), so both apply `patches` with the same parameters to the
  same image.  The kernel's program then multiplies the windows, listed as 12544 rows, by the weights, seven blocks of
  1792 rows at a time, and regroups the rows by image; the reference contracts the windows' last axis against the
  weights' first in one general dot product.  Index by index both are
      Σ_k patches(x)[b, n, k] · W[k, d].
-/
import proofs.«117850_j38044820308624_1_alg».proof.Defs
import proofs.«117850_j38044820308624_1_alg».proof.Proof.Gen.Kernel.Frame
import proofs.«117850_j38044820308624_1_alg».proof.Proof.Gen.KernelIdeal.Frame
import proofs.«117850_j38044820308624_1_alg».proof.Proof.Gen.Pre_finite_inputs
import proofs.«117850_j38044820308624_1_alg».proof.Proof.RowsValue
import proofs.«117850_j38044820308624_1_alg».proof.Proof.RefRun
import proofs.«117850_j38044820308624_1_alg».proof.Proof.Projection

noncomputable section

open Idealize.ShloMosaic Idealize.ShloMosaic.TcCoe Idealize.SL.Sem

namespace Cert.Bridge

/-- The two printed tables of window positions are the same 308 words. -/
theorem lit_eq : Cert.KernelIdeal.lit0 = Cert.ReferenceIdeal.lit0 :=
  funext (by decide +kernel : ∀ i : Fin 308, Cert.KernelIdeal.lit0 i = Cert.ReferenceIdeal.lit0 i)

/-- The two programs extract the same windows: same table, same gather dimension numbers. -/
theorem patches_agree (x : FVec Ideal Cert.KernelIdeal.S64x224x224x3 .f32) :
    Cert.Im2col.patches (F := Ideal) Cert.ReferenceIdeal.gather_S64x224x224x3_S308x1_S64x308x224x3_023_1_n_n_1_1_6412243 Cert.ReferenceIdeal.gather_S64x14x22x224x3_S308x1_S64x14x22x308x3_0124_3_n_n_3_1_64142213 Cert.ReferenceIdeal.lit0 x
      = Cert.Im2col.patches (F := Ideal) Cert.KernelIdeal.gather_S64x224x224x3_S308x1_S64x308x224x3_023_1_n_n_1_1_6412243 Cert.KernelIdeal.gather_S64x14x22x224x3_S308x1_S64x14x22x308x3_0124_3_n_n_3_1_64142213 Cert.KernelIdeal.lit0 x := by
  rw [← lit_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories that agree on the image and on the weights both programs end at the projection of the image's
    windows by the weights. -/
theorem algebraic : Cert.algebraic_KernelIdeal_ReferenceIdeal := by
  intro m ρ m' ρ' _ hagree
  refine ⟨fun c => Cert.Proj.proj
      (Cert.Im2col.patches Cert.KernelIdeal.gather_S64x224x224x3_S308x1_S64x308x224x3_023_1_n_n_1_1_6412243 Cert.KernelIdeal.gather_S64x14x22x224x3_S308x1_S64x14x22x308x3_0124_3_n_n_3_1_64142213 Cert.KernelIdeal.lit0
        (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Rows.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2, Cert.Proj.dot_eq_proj, patches_agree]

end Cert.Bridge

end
-- ==== Proof.lean ====
/-
  An overlapping-window patch embedding: an image batch [64, 224, 224, 3] is cut into 14 × 14 windows of
  22 × 22 × 3 = 1452 numbers each, and every window is projected by the weights [1452, 768].

  The kernel's program extracts the windows on the host, lists them as 12544 rows, and multiplies 1792 rows at a time
  by the weights on a grid of seven points, each product into a zero accumulator; the reference extracts the windows
  the same way and contracts them with the weights in one general dot product.  Over the extended reals a change of
  float format is the identity and both results are, index by index,
      out[b, n, d] = Σ_k patches(x)[b, n, k] · W[k, d],
  the same sum over the same index set: no law beyond the sum being a sum is used, so the precondition is never opened.

  Modules: Patches (the window extraction as one function), Projection (the sum; a tile's matrix product and the
  general dot product are that sum), RowsValue (the kernel's program ends at it), RefRun (the reference's run),
  Bridge (the two extractions agree; the five claims).
-/
import proofs.«117850_j38044820308624_1_alg».proof.Defs
import proofs.«117850_j38044820308624_1_alg».proof.Proof.Gen.Kernel
import proofs.«117850_j38044820308624_1_alg».proof.Proof.Gen.Kernel.Skeleton
import proofs.«117850_j38044820308624_1_alg».proof.Proof.Gen.Kernel.Launch
import proofs.«117850_j38044820308624_1_alg».proof.Proof.Gen.Kernel.Points
import proofs.«117850_j38044820308624_1_alg».proof.Proof.Gen.Kernel.Frame
import proofs.«117850_j38044820308624_1_alg».proof.Proof.Gen.KernelIdeal
import proofs.«117850_j38044820308624_1_alg».proof.Proof.Gen.KernelIdeal.Skeleton
import proofs.«117850_j38044820308624_1_alg».proof.Proof.Gen.KernelIdeal.Launch
import proofs.«117850_j38044820308624_1_alg».proof.Proof.Gen.KernelIdeal.Points
import proofs.«117850_j38044820308624_1_alg».proof.Proof.Gen.KernelIdeal.Frame
import proofs.«117850_j38044820308624_1_alg».proof.Proof.Gen.ReferenceIdeal
import proofs.«117850_j38044820308624_1_alg».proof.Proof.Gen.Pre_finite_inputs
import proofs.«117850_j38044820308624_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_kernel, Cert.Bridge.frame_kernelIdeal, Cert.Bridge.frame_referenceIdeal, trivial, Cert.Bridge.algebraic⟩

end Cert.Proof

end
